-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S512x128 : Shape := ⟨2, ![512, 128]⟩
abbrev S128 : Shape := ⟨1, ![128]⟩
abbrev S128x512 : Shape := ⟨2, ![128, 512]⟩
abbrev S512 : Shape := ⟨1, ![512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S128x512 .f32) (main_arg5 : FVec F S512 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x512 .f32 := Host.absf main_arg4
  let main_cst_6 : FVec F S_ .f32 := constant S_ .f32 0x7F800000#32
  let main_v20 : FVec F S128x512 .f32 := broadcastInDim S128x512 ![] bcast_S_S128x512 main_cst_6
  let main_v21 : IVec S128x512 1 := cmpf .olt main_v19 main_v20
  let main_c_7 : IVec S_ 1 := constantI S_ 1 1#1
  let main_v22 : IVec S_ 1 := (fun x v => Host.reduce IntOp.andi x v reducesTo_S128x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S10000x512 .f32) (main_arg1 : FVec F S10000x10000 .f32) (main_arg2 : FVec F S512x128 .f32) (main_arg3 : FVec F S128 .f32) (main_arg4 : FVec F S128x512 .f32) (main_arg5 : FVec F S512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x512 : Shape := ⟨2, ![10000, 512]⟩
abbrev S10000x10000 : Shape := ⟨2, ![10000, 10000]⟩
abbrev S512x128 : Shape := ⟨2, ![512, 128]⟩
abbrev S128 : Shape := ⟨1, ![128]⟩
abbrev S128x512 : Shape := ⟨2, ![128, 512]⟩
abbrev S512 : Shape := ⟨1, ![512]⟩
abbrev S10000x128 : Shape := ⟨2, ![10000, 128]⟩
abbrev S1x128 : Shape := ⟨2, ![1, 128]⟩
abbrev S200x10000 : Shape := ⟨2, ![200, 10000]⟩
abbrev S200x128 : Shape := ⟨2, ![200, 128]⟩
abbrev S1x512 : Shape := ⟨2, ![1, 512]⟩
abbrev S200x512 : Shape := ⟨2, ![200, 512]⟩

abbrev nBuf : Space → Nat
  | .hbm => 14
  | .vmem => 12
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x128, .f32⟩
  | .hbm, ⟨3, _⟩ => ⟨S128, .f32⟩
  | .hbm, ⟨4, _⟩ => ⟨S128x512, .f32⟩
  | .hbm, ⟨5, _⟩ => ⟨S512, .f32⟩
  | .hbm, ⟨6, _⟩ => ⟨S10000x128, .f32⟩
  | .hbm, ⟨7, _⟩ => ⟨S10000x128, .bf16⟩
  | .hbm, ⟨8, _⟩ => ⟨S1x128, .f32⟩
  | .hbm, ⟨9, _⟩ => ⟨S10000x128, .f32⟩
  | .hbm, ⟨10, _⟩ => ⟨S10000x512, .f32⟩
  | .hbm, ⟨11, _⟩ => ⟨S10000x512, .bf16⟩
  | .hbm, ⟨12, _⟩ => ⟨S1x512, .f32⟩
  | .hbm, ⟨13, _⟩ => ⟨S10000x512, .f32⟩
  | .local _ .vmem, ⟨0, _⟩ => ⟨S200x10000, .f32⟩
  | .local _ .vmem, ⟨1, _⟩ => ⟨S200x10000, .f32⟩
  | .local _ .vmem, ⟨2, _⟩ => ⟨S10000x128, .bf16⟩
  | .local _ .vmem, ⟨3, _⟩ => ⟨S1x128, .f32⟩
  | .local _ .vmem, ⟨4, _⟩ => ⟨S200x128, .f32⟩
  | .local _ .vmem, ⟨5, _⟩ => ⟨S200x128, .f32⟩
  | .local _ .vmem, ⟨6, _⟩ => ⟨S200x10000, .f32⟩
  | .local _ .vmem, ⟨7, _⟩ => ⟨S200x10000, .f32⟩
  | .local _ .vmem, ⟨8, _⟩ => ⟨S10000x512, .bf16⟩
  | .local _ .vmem, ⟨9, _⟩ => ⟨S1x512, .f32⟩
  | .local _ .vmem, ⟨10, _⟩ => ⟨S200x512, .f32⟩
  | .local _ .vmem, ⟨11, _⟩ => ⟨S200x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S200x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bitsLt_bf16_f32 : FTy.bits .bf16 < FTy.bits .f32
  shapeCasts_S128_S1x128 : S128.ShapeCasts S1x128
  inb_S200x10000_S200x10000_0_0 : ∀ a, (![0, 0] : Fin 2 → Nat) a + S200x10000.size a ≤ S200x10000.size a
  h_S200x10000 : 0 < S200x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S200x128_S200x128_0_0 : ∀ a, (![0, 0] : Fin 2 → Nat) a + S200x128.size a ≤ S200x128.size a
  h_S200x128 : 0 < S200x128.numel
  shapeCasts_S512_S1x512 : S512.ShapeCasts S1x512
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S200x512 : S1x512.Broadcasts S200x512
  inb_S200x512_S200x512_0_0 : ∀ a, (![0, 0] : Fin 2 → Nat) a + S200x512.size a ≤ S200x512.size a
  h_S200x512 : 0 < S200x512.numel
  dot_S10000x512_S512x128_S10000x128_1_0_0_1_n_n_wf : DotDims.WF S10000x512 S512x128 S10000x128 [1] [0] [0] [1] [] []
  dot_S200x10000_S10000x128_S200x128_1_0_0_1_n_n_wf : DotDims.WF S200x10000 S10000x128 S200x128 [1] [0] [0] [1] [] []
  dot_S10000x128_S128x512_S10000x512_1_0_0_1_n_n_wf : DotDims.WF S10000x128 S128x512 S10000x512 [1] [0] [0] [1] [] []
  dot_S200x10000_S10000x512_S200x512_1_0_0_1_n_n_wf : DotDims.WF S200x10000 S10000x512 S200x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .bf16 = 32 ∨ (Rect.block (s := S10000x128) S10000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x128.size a ≤ S10000x128.size a
  hwx0_3 : ∀ i : grid0.Coords, EltTy.bits .f32 = 32 ∨ (Rect.block (s := S10000x128) S200x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x512.size a ≤ S10000x512.size a
  hwx1_1 : ∀ i : grid1.Coords, EltTy.bits .bf16 = 32 ∨ (Rect.block (s := S10000x512) S10000x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x512.size a ≤ S10000x512.size a
  hwx1_3 : ∀ i : grid1.Coords, EltTy.bits .f32 = 32 ∨ (Rect.block (s := S10000x512) S200x512.size (cc1_transform_3 i) (hinb1_3 i)).WholeWords (EltTy.packing .f32)

variable [Facts₀]

def dot_S10000x512_S512x128_S10000x128_1_0_0_1_n_n : DotDims S10000x512 S512x128 S10000x128 where
  lhsContracting := [1]
  rhsContracting := [0]
  lhsNonContracting := [0]
  rhsNonContracting := [1]
  lhsBatch := []
  rhsBatch := []
  wf := dot_S10000x512_S512x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S10000x128_S128x512_S10000x512_1_0_0_1_n_n : DotDims S10000x128 S128x512 S10000x512 where
  lhsContracting := [1]
  rhsContracting := [0]
  lhsNonContracting := [0]
  rhsNonContracting := [1]
  lhsBatch := []
  rhsBatch := []
  wf := dot_S10000x128_S128x512_S10000x512_1_0_0_1_n_n_wf
def dot_S200x10000_S10000x512_S200x512_1_0_0_1_n_n : DotDims S200x10000 S10000x512 S200x512 where
  lhsContracting := [1]
  rhsContracting := [0]
  lhsNonContracting := [0]
  rhsNonContracting := [1]
  lhsBatch := []
  rhsBatch := []
  wf := dot_S200x10000_S10000x512_S200x512_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S200x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S10000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S200x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x512 : Shape := ⟨2, ![10000, 512]⟩
abbrev S10000x10000 : Shape := ⟨2, ![10000, 10000]⟩
abbrev S512x128 : Shape := ⟨2, ![512, 128]⟩
abbrev S128 : Shape := ⟨1, ![128]⟩
abbrev S128x512 : Shape := ⟨2, ![128, 512]⟩
abbrev S512 : Shape := ⟨1, ![512]⟩
abbrev S10000x128 : Shape := ⟨2, ![10000, 128]⟩
abbrev S1x128 : Shape := ⟨2, ![1, 128]⟩
abbrev S_ : Shape := ⟨0, ![]⟩
abbrev S1x512 : Shape := ⟨2, ![1, 512]⟩

abbrev nBuf : Space → Nat
  | .hbm => 19
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x128, .f32⟩
  | .hbm, ⟨3, _⟩ => ⟨S128, .f32⟩
  | .hbm, ⟨4, _⟩ => ⟨S128x512, .f32⟩
  | .hbm, ⟨5, _⟩ => ⟨S512, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x512, .f32⟩
  | .hbm, ⟨15, _⟩ => ⟨S10000x512, .f32⟩
  | .hbm, ⟨16, _⟩ => ⟨S1x512, .f32⟩
  | .hbm, ⟨17, _⟩ => ⟨S10000x512, .f32⟩
  | .hbm, ⟨18, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  dot_S10000x512_S512x128_S10000x128_1_0_0_1_n_n_wf : DotDims.WF S10000x512 S512x128 S10000x128 [1] [0] [0] [1] [] []
  dot_S10000x10000_S10000x128_S10000x128_1_0_0_1_n_n_wf : DotDims.WF S10000x10000 S10000x128 S10000x128 [1] [0] [0] [1] [] []
  dot_S10000x128_S128x512_S10000x512_1_0_0_1_n_n_wf : DotDims.WF S10000x128 S128x512 S10000x512 [1] [0] [0] [1] [] []
  dot_S10000x10000_S10000x512_S10000x512_1_0_0_1_n_n_wf : DotDims.WF S10000x10000 S10000x512 S10000x512 [1] [0] [0] [1] [] []

variable [Facts₀]

def dot_S10000x512_S512x128_S10000x128_1_0_0_1_n_n : DotDims S10000x512 S512x128 S10000x128 where
  lhsContracting := [1]
  rhsContracting := [0]
  lhsNonContracting := [0]
  rhsNonContracting := [1]
  lhsBatch := []
  rhsBatch := []
  wf := dot_S10000x512_S512x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x512_S10000x512_1_0_0_1_n_n : DotDims S10000x128 S128x512 S10000x512 where
  lhsContracting := [1]
  rhsContracting := [0]
  lhsNonContracting := [0]
  rhsNonContracting := [1]
  lhsBatch := []
  rhsBatch := []
  wf := dot_S10000x128_S128x512_S10000x512_1_0_0_1_n_n_wf
def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf

class Facts : Prop extends Facts₀ where

variable [Facts]
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«152123_j17721035063382_1_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.LibBiasLayer.lean ====
/-
  A dense layer with a bias row, as plain functions of matrices of extended reals, and each way a program spells it.

  `affine x w b` is the `[a, N]` matrix whose entry `(r, q)` is the row product `∑ₖ x (r, k) · w (k, q)` plus the
  bias `b q`; `reluAffine x w b` clamps every entry of it at zero from below. Both are stated entry by entry, so
  they read the same on a block of rows and on the whole matrix: entry `(r, q)` depends on `x` only through its
  row `r` (`affine_congr`, `reluAffine_congr`).

  A vector program lays the bias `[N]` out as a row `[1, N]` by a shape cast and over the `a` rows by a
  broadcast; a host program does both steps by `broadcast_in_dim`. Either way the laid-out bias read at `(r, q)`
  is `b q` (`row_over_rows_apply`, `host_row_over_rows_apply`). With the matrix product into a zero accumulator,
  respectively the `dot_general`, read as the row product, the whole layer read at `(r, q)` at the ideal values is
  `affine` (`vector_affine_apply`, `host_affine_apply`), and followed by the maximum against a splat of zero it is
  `reluAffine` (`vector_reluAffine_apply`, `host_reluAffine_apply`).

  All are generic in the extents.
-/
import Idealize.ShloMosaic.Lib.Pipeline.Value
import Idealize.ShloMosaic.Lib.ValueIdx
import Idealize.ShloMosaic.Lib.ValueLayout
import Idealize.ShloMosaic.PureOps.Ideal.Laws
import proofs.«152123_j17721035063382_1_alg».proof.Proof.LibDenseLayer

noncomputable section

namespace Cert.BiasLayer

open Idealize.ShloMosaic Idealize.ShloMosaic.ValueIdx Cert.DenseLayer

/-- A vector of `n` extended reals, indexed as the arrays are. -/
abbrev Row (n : ℕ) : Type := (⟨1, ![n]⟩ : Shape).Idx → EReal

variable {a K N : ℕ}

/-! ## The layer -/

/-- `x · w + b`, entry by entry: at `(r, q)` the row product of row `r` with column `q`, plus `b q`. -/
def affine (x : Mat a K) (w : Mat K N) (b : Row N) : Mat a N :=
  fun i => prodRow x w (i 0) (i 1) + b (ix1 (i 1))

/-- `x · w + b` clamped at zero from below, entry by entry (the zero written as the word a program writes). -/
def reluAffine (x : Mat a K) (w : Mat K N) (b : Row N) : Mat a N :=
  fun i => max (affine x w b i) (Ideal.ofBits .f32 0x00000000#32)

theorem affine_apply (x : Mat a K) (w : Mat K N) (b : Row N) (r : Fin a) (q : Fin N) :
    affine x w b (ix2 r q) = prodRow x w r q + b (ix1 q) := rfl

theorem reluAffine_apply (x : Mat a K) (w : Mat K N) (b : Row N) (r : Fin a) (q : Fin N) :
    reluAffine x w b (ix2 r q) = max (affine x w b (ix2 r q)) (Ideal.ofBits .f32 0x00000000#32) := rfl

/-- An entry of the layer depends on the left matrix only through the entry's row. -/
theorem affine_congr {a' : ℕ} (x : Mat a K) (x' : Mat a' K) (w : Mat K N) (b : Row N) (r : Fin a) (r' : Fin a')
    (h : ∀ k, x (ix2 r k) = x' (ix2 r' k)) (q : Fin N) : affine x w b (ix2 r q) = affine x' w b (ix2 r' q) := by
  rw [affine_apply, affine_apply, prodRow_congr x x' w r r' h]

/-- The same for the clamped layer. -/
theorem reluAffine_congr {a' : ℕ} (x : Mat a K) (x' : Mat a' K) (w : Mat K N) (b : Row N) (r : Fin a) (r' : Fin a')
    (h : ∀ k, x (ix2 r k) = x' (ix2 r' k)) (q : Fin N) :
    reluAffine x w b (ix2 r q) = reluAffine x' w b (ix2 r' q) := by
  rw [reluAffine_apply, reluAffine_apply, affine_congr x x' w b r r' h q]

/-! ## The bias laid over the rows -/

variable {α : Type}

/-- A vector `[N]` cast to the row `[1, N]` reads, at `(u, q)`, the vector at `q`, whatever the unit coordinate. -/
theorem shapeCast_n_1n_apply (v : (⟨1, ![N]⟩ : Shape).Idx → α) (h : (⟨1, ![N]⟩ : Shape).ShapeCasts ⟨2, ![1, N]⟩)
    (u : Fin 1) (q : Fin N) : shapeCast ⟨2, ![1, N]⟩ v h (ix2 u q) = v (ix1 q) :=
  shapeCast_apply v h _ _ (by
    have hu : u.val = 0 := by omega
    rw [Shape.rowMajor_val_two, Shape.rowMajor_val_one]
    show q.val = u.val * N + q.val
    rw [hu, Nat.zero_mul, Nat.zero_add])

/-- A vector program's bias: the vector as a row, broadcast over `a` rows, is `v q` at `(r, q)`. -/
theorem row_over_rows_apply (v : (⟨1, ![N]⟩ : Shape).Idx → α) (hc : (⟨1, ![N]⟩ : Shape).ShapeCasts ⟨2, ![1, N]⟩)
    (hb : (⟨2, ![1, N]⟩ : Shape).Broadcasts ⟨2, ![a, N]⟩) (r : Fin a) (q : Fin N) :
    broadcastTo ⟨2, ![a, N]⟩ (shapeCast ⟨2, ![1, N]⟩ v hc) hb (ix2 r q) = v (ix1 q) :=
  (broadcastTo_1b_ab_apply _ hb r q).trans (shapeCast_n_1n_apply v hc 0 q)

/-- A host program's bias: the vector broadcast into the row `[1, N]` along its second axis, then over `a` rows,
    is `v q` at `(r, q)`. -/
theorem host_row_over_rows_apply (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![a, N]⟩ ![0, 1]) (r : Fin a) (q : Fin N) :
    broadcastInDim ⟨2, ![a, N]⟩ ![0, 1] h2 (broadcastInDim ⟨2, ![1, N]⟩ ![1] h1 v) (ix2 r q) = v (ix1 q) := by
  have hq : q.val = if N = 1 then 0 else q.val := by
    split
    · have := q.isLt; omega
    · rfl
  refine (broadcastInDim_apply _ h2 _ (ix2 r q) (ix2 (0 : Fin 1) q) fun ax => ?_).trans
    (broadcastInDim_apply _ h1 v (ix2 (0 : Fin 1) q) (ix1 q) fun ax => ?_)
  · match ax with
    | ⟨0, _⟩ => rfl
    | ⟨1, _⟩ => exact hq
  · match ax with
    | ⟨0, _⟩ => exact hq

/-- A host program's splat of a scalar constant reads that constant everywhere. -/
theorem host_splat_apply {s : Shape} (c : (⟨0, ![]⟩ : Shape).Idx → α) (h : (⟨0, ![]⟩ : Shape).BroadcastsInDim s ![])
    (i : s.Idx) : broadcastInDim s ![] h c i = c ix0 :=
  broadcastInDim_apply _ h c i ix0 fun ax => ax.elim0

/-! ## The layer as a vector program and as a host program spell it -/

section Spellings

variable {φ₁ φ₂ : FTy} {d : DotDims ⟨2, ![a, K]⟩ ⟨2, ![K, N]⟩ ⟨2, ![a, N]⟩}
  (x : FVec Ideal ⟨2, ![a, K]⟩ φ₁) (w : FVec Ideal ⟨2, ![K, N]⟩ φ₂) (b : FVec Ideal ⟨1, ![N]⟩ .f32)

/-- A vector program's product into the zero accumulator plus the laid-out bias is `affine`, entry by entry. -/
theorem vector_affine_apply (hd : PlainDot d) (prec : Option ContractPrecision) (hc : (⟨1, ![N]⟩ : Shape).ShapeCasts ⟨2, ![1, N]⟩)
    (hb : (⟨2, ![1, N]⟩ : Shape).Broadcasts ⟨2, ![a, N]⟩) (r : Fin a) (q : Fin N) :
    addf (matmul d prec x w (constant ⟨2, ![a, N]⟩ .f32 0x00000000#32))
        (broadcastTo ⟨2, ![a, N]⟩ (shapeCast ⟨2, ![1, N]⟩ b hc) hb) (ix2 r q)
      = affine x w b (ix2 r q) := by
  show FloatOps.matmul d prec x w (constant ⟨2, ![a, N]⟩ .f32 0x00000000#32) (ix2 r q)
      + broadcastTo ⟨2, ![a, N]⟩ (shapeCast ⟨2, ![1, N]⟩ b hc) hb (ix2 r q) = _
  rw [matmul_zero_apply hd, row_over_rows_apply]
  rfl

/-- Followed by the maximum against a splat of the zero word it is `reluAffine`. -/
theorem vector_reluAffine_apply (hd : PlainDot d) (prec : Option ContractPrecision) (hc : (⟨1, ![N]⟩ : Shape).ShapeCasts ⟨2, ![1, N]⟩)
    (hb : (⟨2, ![1, N]⟩ : Shape).Broadcasts ⟨2, ![a, N]⟩) (r : Fin a) (q : Fin N) :
    maximumf (addf (matmul d prec x w (constant ⟨2, ![a, N]⟩ .f32 0x00000000#32))
        (broadcastTo ⟨2, ![a, N]⟩ (shapeCast ⟨2, ![1, N]⟩ b hc) hb))
        (broadcast ⟨2, ![a, N]⟩ (Scalar.ofBits (F := Ideal) .f32 0x00000000#32)) (ix2 r q)
      = reluAffine x w b (ix2 r q) := by
  show max (addf (matmul d prec x w (constant ⟨2, ![a, N]⟩ .f32 0x00000000#32))
        (broadcastTo ⟨2, ![a, N]⟩ (shapeCast ⟨2, ![1, N]⟩ b hc) hb) (ix2 r q)) (Ideal.ofBits .f32 0x00000000#32) = _
  rw [vector_affine_apply x w b hd prec hc hb r q]
  rfl

/-- A host program's `dot_general` plus the laid-out bias is `affine`, entry by entry. -/
theorem host_affine_apply (hd : PlainDot d) (prec : Option ContractPrecision)
    (h1 : (⟨1, ![N]⟩ : Shape).BroadcastsInDim ⟨2, ![1, N]⟩ ![1])
    (h2 : (⟨2, ![1, N]⟩ : Shape).BroadcastsInDim ⟨2, ![a, N]⟩ ![0, 1]) (r : Fin a) (q : Fin N) :
    addf (Host.dotGeneral d prec x w)
        (broadcastInDim ⟨2, ![a, N]⟩ ![0, 1] h2 (broadcastInDim ⟨2, ![1, N]⟩ ![1] h1 b)) (ix2 r q)
      = affine x w b (ix2 r q) := by
  show FloatOps.dotGeneral d prec .single x w (ix2 r q)
      + broadcastInDim ⟨2, ![a, N]⟩ ![0, 1] h2 (broadcastInDim ⟨2, ![1, N]⟩ ![1] h1 b) (ix2 r q) = _
  rw [dotGeneral_apply hd, host_row_over_rows_apply]
  rfl

/-- Followed by the maximum against a host splat of the zero word it is `reluAffine`. -/
theorem host_reluAffine_apply (hd : PlainDot d) (prec : Option ContractPrecision)
    (h1 : (⟨1, ![N]⟩ : Shape).BroadcastsInDim ⟨2, ![1, N]⟩ ![1])
    (h2 : (⟨2, ![1, N]⟩ : Shape).BroadcastsInDim ⟨2, ![a, N]⟩ ![0, 1])
    (h0 : (⟨0, ![]⟩ : Shape).BroadcastsInDim ⟨2, ![a, N]⟩ ![]) (r : Fin a) (q : Fin N) :
    maximumf (addf (Host.dotGeneral d prec x w)
        (broadcastInDim ⟨2, ![a, N]⟩ ![0, 1] h2 (broadcastInDim ⟨2, ![1, N]⟩ ![1] h1 b)))
        (broadcastInDim ⟨2, ![a, N]⟩ ![] h0 (constant (F := Ideal) ⟨0, ![]⟩ .f32 0x00000000#32)) (ix2 r q)
      = reluAffine x w b (ix2 r q) := by
  show max (addf (Host.dotGeneral d prec x w)
        (broadcastInDim ⟨2, ![a, N]⟩ ![0, 1] h2 (broadcastInDim ⟨2, ![1, N]⟩ ![1] h1 b)) (ix2 r q))
      (broadcastInDim ⟨2, ![a, N]⟩ ![] h0 (constant (F := Ideal) ⟨0, ![]⟩ .f32 0x00000000#32) (ix2 r q)) = _
  rw [host_affine_apply x w b hd prec h1 h2 r q, host_splat_apply]
  rfl

end Spellings

end Cert.BiasLayer

end
-- ==== Proof.LibTwoLayerGcn.lean ====
/-
  Two graph-convolution layers as plain functions of matrices of extended reals, and two ways a program spells them.

  With an adjacency matrix `adj` of `[n, n]`, features `x` of `[n, f]`, weights `W1` of `[f, h]` and `W2` of `[h, g]` and bias
  rows `b1`, `b2`: the hidden layer is `max (adj · (x · W1) + b1) 0` and the output `adj · (hidden · W2) + b2`, each
  product taken in that grouping. `prod` is a matrix product as a matrix; `hidden` and `output` are the two layers over the
  dense layer with a bias row (`affine`, `reluAffine`).

  * `host_prod` — a host program's `dot_general` of a plain product, as a whole matrix, is `prod`;
  * `host_two_layers` — a host program's spelling of both layers (four plain products, the biases laid out by
    `broadcast_in_dim`, the maximum against a splat of the zero word) is `output`;
  * `rowOf`, `vector_affine_block_apply`, `vector_reluAffine_block_apply` — a vector program that holds the bias as a
    `[1, N]` block and broadcasts it over the rows: the product into the zero accumulator plus that bias, with or
    without the maximum against a splat of zero, read at `(r, q)`, is the dense layer with the block's row as bias;
  * `rowOf_shapeCast` — the row of a vector `[N]` cast to `[1, N]` is the vector.

  All are generic in the extents, at the ideal values.
-/
import Idealize.ShloMosaic.Lib.Pipeline.Value
import Idealize.ShloMosaic.Lib.ValueIdx
import Idealize.ShloMosaic.Lib.ValueLayout
import Idealize.ShloMosaic.PureOps.Ideal.Laws
import proofs.«152123_j17721035063382_1_alg».proof.Proof.LibBiasLayer

noncomputable section

namespace Cert.TwoLayerGcn

open Idealize.ShloMosaic Idealize.ShloMosaic.ValueIdx Cert.DenseLayer Cert.BiasLayer

variable {a K N : ℕ}

/-! ## The layers -/

/-- The product `x · w` as a matrix: at `(r, q)` the sum over `k` of `x (r, k) · w (k, q)`. -/
def prod (x : Mat a K) (w : Mat K N) : Mat a N := fun i => prodRow x w (i 0) (i 1)

theorem prod_apply (x : Mat a K) (w : Mat K N) (r : Fin a) (q : Fin N) : prod x w (ix2 r q) = prodRow x w r q := rfl

variable {n f h g : ℕ}

/-- The hidden layer: `adj · (x · W1) + b1` clamped at zero from below. -/
def hidden (adj : Mat n n) (x : Mat n f) (W1 : Mat f h) (b1 : Row h) : Mat n h :=
  reluAffine adj (prod x W1) b1

/-- The output layer: `adj · (hidden · W2) + b2`. -/
def output (adj : Mat n n) (x : Mat n f) (W1 : Mat f h) (b1 : Row h) (W2 : Mat h g) (b2 : Row g) : Mat n g :=
  affine adj (prod (hidden adj x W1 b1) W2) b2

/-! ## A host program's spelling -/

/-- A host program's `dot_general` of a plain product is the product, as a whole matrix. -/
theorem host_prod {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂) :
    Host.dotGeneral d prec x w = prod x w :=
  funext fun i => dotGeneral_apply hd prec .single x w i

/-- A host program's two layers — the four products as `dot_general`s, each bias broadcast into a row and then over
    the rows, the hidden layer's maximum against a splat of the zero word — are `output`. -/
theorem host_two_layers
    {d1 : DotDims ⟨2, ![n, f]⟩ ⟨2, ![f, h]⟩ ⟨2, ![n, h]⟩} {d2 : DotDims ⟨2, ![n, n]⟩ ⟨2, ![n, h]⟩ ⟨2, ![n, h]⟩}
    {d3 : DotDims ⟨2, ![n, h]⟩ ⟨2, ![h, g]⟩ ⟨2, ![n, g]⟩} {d4 : DotDims ⟨2, ![n, n]⟩ ⟨2, ![n, g]⟩ ⟨2, ![n, g]⟩}
    (hd1 : PlainDot d1) (hd2 : PlainDot d2) (hd3 : PlainDot d3) (hd4 : PlainDot d4)
    (p1 p2 p3 p4 : Option ContractPrecision)
    (x : FVec Ideal ⟨2, ![n, f]⟩ .f32) (adj : FVec Ideal ⟨2, ![n, n]⟩ .f32) (W1 : FVec Ideal ⟨2, ![f, h]⟩ .f32)
    (b1 : FVec Ideal ⟨1, ![h]⟩ .f32) (W2 : FVec Ideal ⟨2, ![h, g]⟩ .f32) (b2 : FVec Ideal ⟨1, ![g]⟩ .f32)
    (k1 : (⟨1, ![h]⟩ : Shape).BroadcastsInDim ⟨2, ![1, h]⟩ ![1])
    (k2 : (⟨2, ![1, h]⟩ : Shape).BroadcastsInDim ⟨2, ![n, h]⟩ ![0, 1])
    (k0 : (⟨0, ![]⟩ : Shape).BroadcastsInDim ⟨2, ![n, h]⟩ ![])
    (l1 : (⟨1, ![g]⟩ : Shape).BroadcastsInDim ⟨2, ![1, g]⟩ ![1])
    (l2 : (⟨2, ![1, g]⟩ : Shape).BroadcastsInDim ⟨2, ![n, g]⟩ ![0, 1]) :
    addf (Host.dotGeneral d4 p4 adj (Host.dotGeneral d3 p3
        (maximumf (addf (Host.dotGeneral d2 p2 adj (Host.dotGeneral d1 p1 x W1))
            (broadcastInDim ⟨2, ![n, h]⟩ ![0, 1] k2 (broadcastInDim ⟨2, ![1, h]⟩ ![1] k1 b1)))
          (broadcastInDim ⟨2, ![n, h]⟩ ![] k0 (constant (F := Ideal) ⟨0, ![]⟩ .f32 0x00000000#32))) W2))
      (broadcastInDim ⟨2, ![n, g]⟩ ![0, 1] l2 (broadcastInDim ⟨2, ![1, g]⟩ ![1] l1 b2))
      = output adj x W1 b1 W2 b2 := by
  have e1 : Host.dotGeneral d1 p1 x W1 = prod x W1 := host_prod hd1 p1 x W1
  have eh : maximumf (addf (Host.dotGeneral (φ₂ := .f32) d2 p2 adj (prod x W1))
        (broadcastInDim ⟨2, ![n, h]⟩ ![0, 1] k2 (broadcastInDim ⟨2, ![1, h]⟩ ![1] k1 b1)))
      (broadcastInDim ⟨2, ![n, h]⟩ ![] k0 (constant (F := Ideal) ⟨0, ![]⟩ .f32 0x00000000#32))
      = hidden adj x W1 b1 := by
    funext j
    obtain ⟨r, q, rfl⟩ : ∃ (r : Fin n) (q : Fin h), j = ix2 r q := ⟨j 0, j 1, eq_ix2 j⟩
    exact host_reluAffine_apply adj (prod x W1) b1 hd2 p2 k1 k2 k0 r q
  rw [e1, eh, host_prod hd3 p3]
  funext i
  obtain ⟨r, q, rfl⟩ : ∃ (r : Fin n) (q : Fin g), i = ix2 r q := ⟨i 0, i 1, eq_ix2 i⟩
  exact host_affine_apply adj (prod (hidden adj x W1 b1) W2) b2 hd4 p4 l1 l2 r q

/-! ## A vector program's block body, the bias held as a row block -/

/-- The one row of a `[1, N]` block, as a vector. -/
def rowOf (b : (⟨2, ![1, N]⟩ : Shape).Idx → EReal) : Row N := fun i => b (ix2 (0 : Fin 1) (i 0))

theorem rowOf_apply (b : (⟨2, ![1, N]⟩ : Shape).Idx → EReal) (q : Fin N) : rowOf b (ix1 q) = b (ix2 (0 : Fin 1) q) := rfl

/-- The row of a vector `[N]` cast to the block `[1, N]` is the vector. -/
theorem rowOf_shapeCast (v : FVec Ideal ⟨1, ![N]⟩ .f32) (hc : (⟨1, ![N]⟩ : Shape).ShapeCasts ⟨2, ![1, N]⟩) :
    rowOf (shapeCast ⟨2, ![1, N]⟩ v hc) = v :=
  funext fun i => by
    obtain ⟨q, rfl⟩ : ∃ q : Fin N, i = ix1 q := ⟨i 0, eq_ix1 i⟩
    exact shapeCast_n_1n_apply v hc 0 q

/-- A vector program's product into the zero accumulator plus a `[1, N]` bias block broadcast over the rows is the
    dense layer whose bias is the block's row, entry by entry. -/
theorem vector_affine_block_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (b : FVec Ideal ⟨2, ![1, N]⟩ .f32) (hb : (⟨2, ![1, N]⟩ : Shape).Broadcasts ⟨2, ![a, N]⟩) (r : Fin a) (q : Fin N) :
    addf (matmul d prec x w (constant ⟨2, ![a, N]⟩ .f32 0x00000000#32)) (broadcastTo ⟨2, ![a, N]⟩ b hb) (ix2 r q)
      = affine x w (rowOf b) (ix2 r q) := by
  show FloatOps.matmul d prec x w (constant ⟨2, ![a, N]⟩ .f32 0x00000000#32) (ix2 r q)
      + broadcastTo ⟨2, ![a, N]⟩ b hb (ix2 r q) = _
  rw [matmul_zero_apply hd, broadcastTo_1b_ab_apply]
  rfl

/-- Followed by the maximum against a splat of the zero word it is the clamped layer. -/
theorem vector_reluAffine_block_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (b : FVec Ideal ⟨2, ![1, N]⟩ .f32) (hb : (⟨2, ![1, N]⟩ : Shape).Broadcasts ⟨2, ![a, N]⟩) (r : Fin a) (q : Fin N) :
    maximumf (addf (matmul d prec x w (constant ⟨2, ![a, N]⟩ .f32 0x00000000#32)) (broadcastTo ⟨2, ![a, N]⟩ b hb))
        (broadcast ⟨2, ![a, N]⟩ (Scalar.ofBits (F := Ideal) .f32 0x00000000#32)) (ix2 r q)
      = reluAffine x w (rowOf b) (ix2 r q) := by
  show max (addf (matmul d prec x w (constant ⟨2, ![a, N]⟩ .f32 0x00000000#32)) (broadcastTo ⟨2, ![a, N]⟩ b hb) (ix2 r q))
      (Ideal.ofBits .f32 0x00000000#32) = _
  rw [vector_affine_block_apply hd prec x w b hb r q]
  rfl

end Cert.TwoLayerGcn

end
-- ==== Proof.LibPlainDot.lean ====
/-
  Dimension numbers of a plain matrix product, recognised from their axis lists.

  A contraction's dimension numbers name, for each operand, which axes are batch axes, which are carried to the
  result and which are summed over. For a product `[a, K] × [K, N] → [a, N]` with no batch axis, the left operand's
  second axis summed against the right operand's first, and the two remaining axes carried in order, the left operand
  is read at `(row, k)` and the right at `(k, column)`: the record is a `PlainDot`, so that the product at an index is
  the row-times-column sum `prodRow`. The lemma is generic in the extents and takes the six axis lists as equations,
  which hold by `rfl` of any record written with those lists.
-/
import Idealize.ShloMosaic.PureOps.Dims
import proofs.«152123_j17721035063382_1_alg».proof.Proof.LibDenseLayer

noncomputable section

namespace Cert.DenseLayer

open Idealize.ShloMosaic Idealize.ShloMosaic.ValueIdx

variable {a K N : ℕ}

/-- Two positions of one index that are equal as numbers hold the same coordinate. -/
theorem coord_val_congr {s : Shape} (i : s.Idx) (p q : ℕ) (hp : p < s.rank) (hq : q < s.rank) (h : p = q) :
    (i ⟨p, hp⟩).val = (i ⟨q, hq⟩).val := by subst h; rfl

/-- Dimension numbers with no batch axis that sum the left operand's axis 1 against the right operand's axis 0 and
    carry the left operand's axis 0 and then the right operand's axis 1 are those of a plain product. -/
theorem plainDot_of_axes (d : DotDims ⟨2, ![a, K]⟩ ⟨2, ![K, N]⟩ ⟨2, ![a, N]⟩)
    (hlc : d.lhsContracting = [1]) (hrc : d.rhsContracting = [0])
    (hln : d.lhsNonContracting = [0]) (hrn : d.rhsNonContracting = [1])
    (hlb : d.lhsBatch = []) (hrb : d.rhsBatch = []) : PlainDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => d.rhsIdx_val_of_single hrc i q
  rhs1 := fun i q => by
    have hb : (1 : Fin (⟨2, ![K, N]⟩ : Shape).rank) ∉ d.rhsBatch := by rw [hrb]; exact List.not_mem_nil
    have hn : (1 : Fin (⟨2, ![K, N]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])

end Cert.DenseLayer

end
-- ==== Proof.KernelBody.lean ====
/-
  What each kernel region's body computes from its loaded blocks, read at an index at the ideal values.

  Both regions run the same body on a block of 200 rows of the adjacency matrix, a whole right operand and a
  `[1, N]` bias block: the adjacency block through a change of float format (the identity on extended reals), the
  right operand and the bias each through a cast to their own shape (the identity), the product into a zero
  accumulator, plus the bias broadcast over the rows. Region 0 then takes the maximum against zero. So at row `r`
  and column `q` the stored value is the dense layer with a bias row of the three blocks: clamped in region 0,
  plain in region 1.
-/
import proofs.«152123_j17721035063382_1_alg».proof.Proof.Gen.KernelIdeal.Skeleton
import proofs.«152123_j17721035063382_1_alg».proof.Proof.LibTwoLayerGcn
import proofs.«152123_j17721035063382_1_alg».proof.Proof.LibPlainDot

noncomputable section

namespace Cert.KernelIdeal.Body

open Idealize.ShloMosaic Idealize.ShloMosaic.ValueIdx Cert.KernelIdeal Cert.KernelIdeal.Gen
open Cert.DenseLayer Cert.BiasLayer Cert.TwoLayerGcn

/-- Region 0's product sums the block's second axis against the right operand's first. -/
theorem plain0 : PlainDot dot_S200x10000_S10000x128_S200x128_1_0_0_1_n_n :=
  plainDot_of_axes _ rfl rfl rfl rfl rfl rfl

/-- Region 1's product likewise. -/
theorem plain1 : PlainDot dot_S200x10000_S10000x512_S200x512_1_0_0_1_n_n :=
  plainDot_of_axes _ rfl rfl rfl rfl rfl rfl

/-- Region 0 stores, at `(r, q)`, the clamped dense layer of its blocks: row `r` of the adjacency block times column
    `q` of the right operand, plus the bias block's entry `q`, against zero. -/
theorem pay0_apply (x0 : Vec Ideal S200x10000 .f32) (x1 : Vec Ideal S10000x128 .bf16) (x2 : Vec Ideal S1x128 .f32)
    (r : Fin 200) (q : Fin 128) :
    k0_pay1 x0 x1 x2 (ix2 r q) = reluAffine x0 x1 (rowOf x2) (ix2 r q) := by
  unfold k0_pay1
  rw [shapeCast_self, shapeCast_self]
  exact vector_reluAffine_block_apply plain0 none (truncf .bf16 x0 bitsLt_bf16_f32) x1 x2
    broadcasts_S1x128_S200x128 r q

/-- Region 1 stores, at `(r, q)`, the dense layer of its blocks, unclamped. -/
theorem pay1_apply (x0 : Vec Ideal S200x10000 .f32) (x1 : Vec Ideal S10000x512 .bf16) (x2 : Vec Ideal S1x512 .f32)
    (r : Fin 200) (q : Fin 512) :
    k1_pay1 x0 x1 x2 (ix2 r q) = affine x0 x1 (rowOf x2) (ix2 r q) := by
  unfold k1_pay1
  rw [shapeCast_self, shapeCast_self]
  exact vector_affine_block_apply plain1 none (truncf .bf16 x0 bitsLt_bf16_f32) x1 x2
    broadcasts_S1x512_S200x512 r q

end Cert.KernelIdeal.Body

end
-- ==== Proof.Region0Value.lean ====
/-
  What kernel region 0 leaves in its output array, as one function of the arrays the region finds.

  The region walks the adjacency matrix in 50 blocks of 200 rows; at every point it reads the whole right operand and
  the whole bias block, and writes one block of 200 rows of the output. Row `r` of the block written at point `t`
  depends on the adjacency block only through its row `r`, which is row `200 t + r` of the matrix: so the blocks are
  the blocks of ONE whole-array function, the reluAffine layer (a dense layer with a bias row) of the adjacency matrix,
  the right operand and the bias block's row. The 50 blocks tile the output array, so after the region the array holds
  that function.

  Stated at a parameter `V`, the buffer contents when the region is entered, at the ideal values.
-/
import proofs.«152123_j17721035063382_1_alg».proof.Proof.Gen.KernelIdeal.Frame
import proofs.«152123_j17721035063382_1_alg».proof.Proof.KernelBody
import Idealize.ShloMosaic.Lib.Pipeline.Value

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body
open Cert.DenseLayer Cert.BiasLayer Cert.TwoLayerGcn

variable (V : (c : Dev nD) → (b : Ref sig .tc) → Buf (Elt Ideal) ((c : Thread nD τ).loc b))

theorem hz : (![0, 0] : Fin 2 → Nat) = fun _ => 0 := funext fun a => by fin_cases a <;> rfl

/-- The adjacency matrix as the region finds it. -/
abbrev adjAt (c : Dev nD) : Mat 10000 10000 := V c main_arg1
/-- The right operand as the region finds it. -/
abbrev rhsAt (c : Dev nD) : Mat 10000 128 := V c main_v1
/-- The bias block as the region finds it. -/
abbrev biasAt (c : Dev nD) : (⟨2, ![1, 128]⟩ : Shape).Idx → EReal := V c main_v2

/-- What the region's output array holds after the region: the reluAffine layer of the adjacency matrix, the right
    operand and the bias block's row. -/
def arrayOf (c : Dev nD) : Mat 10000 128 := reluAffine (adjAt V c) (rhsAt V c) (rowOf (biasAt V c))

/-- The index maps over the grid: at point `t` the adjacency window and the output window are at block row `t`, the right
    operand and the bias are their whole arrays. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The adjacency block at point `t`: its row `r` is row `200 t + r` of the matrix. -/
theorem adj_block (c : Dev nD) (t : Fin cfg0.N) (r : Fin 200) (r' : Fin 10000) (hr : r'.val = t.val * 200 + r.val)
    (k : Fin 10000) : (iblk0 V c 0 t : Mat 200 10000) (ix2 r k) = adjAt V c (ix2 r' k) := by
  obtain ⟨e0, e1, -⟩ := idx t
  show adjAt V c (((cfg0.win 0).blk t).view.emb (ix2 r k)) = _
  refine congrArg _ (funext fun a => Fin.ext ?_)
  match a with
  | ⟨0, _⟩ => show win0_0.index t (0 : Fin 2) * 200 + 1 * r.val = r'.val; rw [e0, hr]; omega
  | ⟨1, _⟩ => show win0_0.index t (1 : Fin 2) * 10000 + 1 * k.val = k.val; rw [e1]; omega

/-- The right operand's block at any point is the whole operand. -/
theorem rhs_block (c : Dev nD) (t : Fin cfg0.N) : (iblk0 V c 1 t : Mat 10000 128) = rhsAt V c := funext fun y => by
  obtain ⟨-, -, e2, e3, -⟩ := idx t
  show rhsAt V c (((cfg0.win 1).blk t).view.emb y) = _
  refine congrArg _ (funext fun a => Fin.ext ?_)
  match a with
  | ⟨0, _⟩ => show win0_1.index t (0 : Fin 2) * 10000 + 1 * (y 0).val = (y 0).val; rw [e2]; omega
  | ⟨1, _⟩ => show win0_1.index t (1 : Fin 2) * 128 + 1 * (y 1).val = (y 1).val; rw [e3]; omega

/-- The bias window's block at any point is the whole bias block. -/
theorem bias_block (c : Dev nD) (t : Fin cfg0.N) :
    (iblk0 V c 2 t : (⟨2, ![1, 128]⟩ : Shape).Idx → EReal) = biasAt V c := funext fun y => by
  obtain ⟨-, -, -, -, e4, e5, -⟩ := idx t
  show biasAt V c (((cfg0.win 2).blk t).view.emb y) = _
  refine congrArg _ (funext fun a => Fin.ext ?_)
  match a with
  | ⟨0, _⟩ => show win0_2.index t (0 : Fin 2) * 1 + 1 * (y 0).val = (y 0).val; rw [e4]; omega
  | ⟨1, _⟩ => show win0_2.index t (1 : Fin 2) * 128 + 1 * (y 1).val = (y 1).val; rw [e5]; omega

/-- What point `t` writes back is block `t` of `arrayOf`: the body's value at `(r, q)` depends on the adjacency block only
    through its row `r`, which is row `200 t + r` of the matrix, where the output block's row `r` sits. -/
theorem flushed (c : Dev nD) (t : Fin cfg0.N) :
    (dat0 V c).flushed 3 t = ((cfg0.win 3).blk t).view.read (Elt Ideal) (arrayOf V c) := by
  show (cfg0.win 3).cut (grid0.coords t) ((dat0 V c).after 3 t) = _
  rw [after0_3]
  unfold out0_3
  rw [View.canon_unit_zero hz]
  simp only [View.ld_unit_zero (S := S200x10000) hz, View.ld_unit_zero (S := S10000x128) hz, View.ld_unit_zero (S := S1x128) hz]
  funext j
  obtain ⟨r, q, rfl⟩ : ∃ (r : Fin 200) (q : Fin 128), j = ix2 r q := ⟨j 0, j 1, eq_ix2 j⟩
  obtain ⟨-, -, -, -, -, -, e6, e7⟩ := idx t
  have hN : t.val < 50 := lt_of_lt_of_eq t.isLt N_0
  have hemb : ((cfg0.win 3).blk t).view.emb (ix2 r q) = ix2 (⟨t.val * 200 + r.val, by omega⟩ : Fin 10000) q :=
    funext fun a => Fin.ext (by
      match a with
      | ⟨0, _⟩ => show win0_3.index t (0 : Fin 2) * 200 + 1 * r.val = t.val * 200 + r.val; rw [e6]; omega
      | ⟨1, _⟩ => show win0_3.index t (1 : Fin 2) * 128 + 1 * q.val = q.val; rw [e7]; omega)
  show k0_pay1 (iblk0 V c 0 t) (iblk0 V c 1 t) (iblk0 V c 2 t) (ix2 r q) = arrayOf V c (((cfg0.win 3).blk t).view.emb (ix2 r q))
  rw [hemb]
  refine (pay0_apply _ _ _ r q).trans ?_
  rw [rhs_block V c t, bias_block V c t]
  exact reluAffine_congr _ _ _ _ r _ (fun k => adj_block V c t r _ rfl k) q

/-- An index of the output array is in point `t`'s block iff each coordinate is in the block's range on its axis. -/
theorem mem_blk (t : Fin cfg0.N) (i : S10000x128.Idx) :
    i ∈ ((cfg0.win 3).blk t).view.set ↔ ∀ a : Fin 2, win0_3.index t a * S200x128.size a ≤ (i a).val ∧ (i a).val < win0_3.index t a * S200x128.size a + S200x128.size a := by
  show i ∈ ((View.whole main_v3).slice (win0_3.rect t)).set ↔ _
  rw [View.set_slice_whole, Rect.mem_set_unit]
  exact Iff.rfl

/-- Every index of the output array is in some point's block: row `p` in the block of point `p / 200`. -/
theorem cover (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  have hlt : (i 0).val / 200 < cfg0.N := lt_of_lt_of_eq (by omega : (i 0).val / 200 < 50) N_0.symm
  obtain ⟨-, -, -, -, -, -, e6, e7⟩ := idx ⟨(i 0).val / 200, hlt⟩
  refine ⟨⟨(i 0).val / 200, hlt⟩, flush0_3 _, ?_⟩
  rw [mem_blk]
  intro a
  match a with
  | ⟨0, _⟩ => show win0_3.index ⟨(i 0).val / 200, hlt⟩ (0 : Fin 2) * 200 ≤ (i 0).val ∧ (i 0).val < win0_3.index ⟨(i 0).val / 200, hlt⟩ (0 : Fin 2) * 200 + 200; rw [e6]; show (i 0).val / 200 * 200 ≤ (i 0).val ∧ (i 0).val < (i 0).val / 200 * 200 + 200; omega
  | ⟨1, _⟩ => show win0_3.index ⟨(i 0).val / 200, hlt⟩ (1 : Fin 2) * 128 ≤ (i 1).val ∧ (i 1).val < win0_3.index ⟨(i 0).val / 200, hlt⟩ (1 : Fin 2) * 128 + 128; rw [e7]; omega

/-- The region's output array after the region is `arrayOf`. -/
theorem final (c : Dev nD) : (dat0 V c).arrAt 3 cfg0.N = arrayOf V c :=
  (dat0 V c).arrAt_eq_of_cover 3 (arrayOf V c) (fun t _ => flushed V c t) cover

end Cert.KernelIdeal.Region0

end
-- ==== Proof.Region1Value.lean ====
/-
  What kernel region 1 leaves in its output array, as one function of the arrays the region finds.

  The region walks the adjacency matrix in 50 blocks of 200 rows; at every point it reads the whole right operand and
  the whole bias block, and writes one block of 200 rows of the output. Row `r` of the block written at point `t`
  depends on the adjacency block only through its row `r`, which is row `200 t + r` of the matrix: so the blocks are
  the blocks of ONE whole-array function, the affine layer (a dense layer with a bias row) of the adjacency matrix,
  the right operand and the bias block's row. The 50 blocks tile the output array, so after the region the array holds
  that function.

  Stated at a parameter `V`, the buffer contents when the region is entered, at the ideal values.
-/
import proofs.«152123_j17721035063382_1_alg».proof.Proof.Gen.KernelIdeal.Frame
import proofs.«152123_j17721035063382_1_alg».proof.Proof.KernelBody
import Idealize.ShloMosaic.Lib.Pipeline.Value

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body
open Cert.DenseLayer Cert.BiasLayer Cert.TwoLayerGcn

variable (V : (c : Dev nD) → (b : Ref sig .tc) → Buf (Elt Ideal) ((c : Thread nD τ).loc b))

theorem hz : (![0, 0] : Fin 2 → Nat) = fun _ => 0 := funext fun a => by fin_cases a <;> rfl

/-- The adjacency matrix as the region finds it. -/
abbrev adjAt (c : Dev nD) : Mat 10000 10000 := V c main_arg1
/-- The right operand as the region finds it. -/
abbrev rhsAt (c : Dev nD) : Mat 10000 512 := V c main_v5
/-- The bias block as the region finds it. -/
abbrev biasAt (c : Dev nD) : (⟨2, ![1, 512]⟩ : Shape).Idx → EReal := V c main_v6

/-- What the region's output array holds after the region: the affine layer of the adjacency matrix, the right
    operand and the bias block's row. -/
def arrayOf (c : Dev nD) : Mat 10000 512 := affine (adjAt V c) (rhsAt V c) (rowOf (biasAt V c))

/-- The index maps over the grid: at point `t` the adjacency window and the output window are at block row `t`, the right
    operand and the bias are their whole arrays. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The adjacency block at point `t`: its row `r` is row `200 t + r` of the matrix. -/
theorem adj_block (c : Dev nD) (t : Fin cfg1.N) (r : Fin 200) (r' : Fin 10000) (hr : r'.val = t.val * 200 + r.val)
    (k : Fin 10000) : (iblk1 V c 0 t : Mat 200 10000) (ix2 r k) = adjAt V c (ix2 r' k) := by
  obtain ⟨e0, e1, -⟩ := idx t
  show adjAt V c (((cfg1.win 0).blk t).view.emb (ix2 r k)) = _
  refine congrArg _ (funext fun a => Fin.ext ?_)
  match a with
  | ⟨0, _⟩ => show win1_0.index t (0 : Fin 2) * 200 + 1 * r.val = r'.val; rw [e0, hr]; omega
  | ⟨1, _⟩ => show win1_0.index t (1 : Fin 2) * 10000 + 1 * k.val = k.val; rw [e1]; omega

/-- The right operand's block at any point is the whole operand. -/
theorem rhs_block (c : Dev nD) (t : Fin cfg1.N) : (iblk1 V c 1 t : Mat 10000 512) = rhsAt V c := funext fun y => by
  obtain ⟨-, -, e2, e3, -⟩ := idx t
  show rhsAt V c (((cfg1.win 1).blk t).view.emb y) = _
  refine congrArg _ (funext fun a => Fin.ext ?_)
  match a with
  | ⟨0, _⟩ => show win1_1.index t (0 : Fin 2) * 10000 + 1 * (y 0).val = (y 0).val; rw [e2]; omega
  | ⟨1, _⟩ => show win1_1.index t (1 : Fin 2) * 512 + 1 * (y 1).val = (y 1).val; rw [e3]; omega

/-- The bias window's block at any point is the whole bias block. -/
theorem bias_block (c : Dev nD) (t : Fin cfg1.N) :
    (iblk1 V c 2 t : (⟨2, ![1, 512]⟩ : Shape).Idx → EReal) = biasAt V c := funext fun y => by
  obtain ⟨-, -, -, -, e4, e5, -⟩ := idx t
  show biasAt V c (((cfg1.win 2).blk t).view.emb y) = _
  refine congrArg _ (funext fun a => Fin.ext ?_)
  match a with
  | ⟨0, _⟩ => show win1_2.index t (0 : Fin 2) * 1 + 1 * (y 0).val = (y 0).val; rw [e4]; omega
  | ⟨1, _⟩ => show win1_2.index t (1 : Fin 2) * 512 + 1 * (y 1).val = (y 1).val; rw [e5]; omega

/-- What point `t` writes back is block `t` of `arrayOf`: the body's value at `(r, q)` depends on the adjacency block only
    through its row `r`, which is row `200 t + r` of the matrix, where the output block's row `r` sits. -/
theorem flushed (c : Dev nD) (t : Fin cfg1.N) :
    (dat1 V c).flushed 3 t = ((cfg1.win 3).blk t).view.read (Elt Ideal) (arrayOf V c) := by
  show (cfg1.win 3).cut (grid1.coords t) ((dat1 V c).after 3 t) = _
  rw [after1_3]
  unfold out1_3
  rw [View.canon_unit_zero hz]
  simp only [View.ld_unit_zero (S := S200x10000) hz, View.ld_unit_zero (S := S10000x512) hz, View.ld_unit_zero (S := S1x512) hz]
  funext j
  obtain ⟨r, q, rfl⟩ : ∃ (r : Fin 200) (q : Fin 512), j = ix2 r q := ⟨j 0, j 1, eq_ix2 j⟩
  obtain ⟨-, -, -, -, -, -, e6, e7⟩ := idx t
  have hN : t.val < 50 := lt_of_lt_of_eq t.isLt N_1
  have hemb : ((cfg1.win 3).blk t).view.emb (ix2 r q) = ix2 (⟨t.val * 200 + r.val, by omega⟩ : Fin 10000) q :=
    funext fun a => Fin.ext (by
      match a with
      | ⟨0, _⟩ => show win1_3.index t (0 : Fin 2) * 200 + 1 * r.val = t.val * 200 + r.val; rw [e6]; omega
      | ⟨1, _⟩ => show win1_3.index t (1 : Fin 2) * 512 + 1 * q.val = q.val; rw [e7]; omega)
  show k1_pay1 (iblk1 V c 0 t) (iblk1 V c 1 t) (iblk1 V c 2 t) (ix2 r q) = arrayOf V c (((cfg1.win 3).blk t).view.emb (ix2 r q))
  rw [hemb]
  refine (pay1_apply _ _ _ r q).trans ?_
  rw [rhs_block V c t, bias_block V c t]
  exact affine_congr _ _ _ _ r _ (fun k => adj_block V c t r _ rfl k) q

/-- An index of the output array is in point `t`'s block iff each coordinate is in the block's range on its axis. -/
theorem mem_blk (t : Fin cfg1.N) (i : S10000x512.Idx) :
    i ∈ ((cfg1.win 3).blk t).view.set ↔ ∀ a : Fin 2, win1_3.index t a * S200x512.size a ≤ (i a).val ∧ (i a).val < win1_3.index t a * S200x512.size a + S200x512.size a := by
  show i ∈ ((View.whole main_v7).slice (win1_3.rect t)).set ↔ _
  rw [View.set_slice_whole, Rect.mem_set_unit]
  exact Iff.rfl

/-- Every index of the output array is in some point's block: row `p` in the block of point `p / 200`. -/
theorem cover (i : S10000x512.Idx) :
    ∃ t : Fin cfg1.N, (cfg1.win 3).flush t = true ∧ i ∈ ((cfg1.win 3).blk t).view.set := by
  have hi0 : (i 0).val < 10000 := (i 0).isLt
  have hi1 : (i 1).val < 512 := (i 1).isLt
  have hlt : (i 0).val / 200 < cfg1.N := lt_of_lt_of_eq (by omega : (i 0).val / 200 < 50) N_1.symm
  obtain ⟨-, -, -, -, -, -, e6, e7⟩ := idx ⟨(i 0).val / 200, hlt⟩
  refine ⟨⟨(i 0).val / 200, hlt⟩, flush1_3 _, ?_⟩
  rw [mem_blk]
  intro a
  match a with
  | ⟨0, _⟩ => show win1_3.index ⟨(i 0).val / 200, hlt⟩ (0 : Fin 2) * 200 ≤ (i 0).val ∧ (i 0).val < win1_3.index ⟨(i 0).val / 200, hlt⟩ (0 : Fin 2) * 200 + 200; rw [e6]; show (i 0).val / 200 * 200 ≤ (i 0).val ∧ (i 0).val < (i 0).val / 200 * 200 + 200; omega
  | ⟨1, _⟩ => show win1_3.index ⟨(i 0).val / 200, hlt⟩ (1 : Fin 2) * 512 ≤ (i 1).val ∧ (i 1).val < win1_3.index ⟨(i 0).val / 200, hlt⟩ (1 : Fin 2) * 512 + 512; rw [e7]; omega

/-- The region's output array after the region is `arrayOf`. -/
theorem final (c : Dev nD) : (dat1 V c).arrAt 3 cfg1.N = arrayOf V c :=
  (dat1 V c).arrAt_eq_of_cover 3 (arrayOf V c) (fun t _ => flushed V c t) cover

end Cert.KernelIdeal.Region1

end
-- ==== Proof.KernelChain.lean ====
/-
  The idealized kernel's result as one function of its six arguments.

  The program is: a host product `x · W1` (then a change of float format, the identity on extended reals) and the bias
  `b1` reshaped to a `[1, 128]` block; kernel region 0, which leaves the hidden layer `max (adj · (x · W1) + b1) 0`; a host
  product `hidden · W2` and the bias `b2` reshaped to `[1, 512]`; kernel region 1, which leaves `adj · (hidden · W2) + b2`.
  Each boundary's buffer contents are read here from the boundary before: a host stretch's results by its operations,
  a region's output array by what its blocks cover, every other buffer as it was. At the last boundary the result
  array holds `output` of the arguments as launched.
-/
import proofs.«152123_j17721035063382_1_alg».proof.Proof.Region0Value
import proofs.«152123_j17721035063382_1_alg».proof.Proof.Region1Value
import proofs.«152123_j17721035063382_1_alg».proof.Proof.KernelRun
import Idealize.ShloMosaic.Lib.StableHlo.Run

set_option maxRecDepth 16384

noncomputable section

namespace Cert.KernelIdeal.Chain

open Idealize.ShloMosaic Idealize.ShloMosaic.TcCoe Idealize.SL.Sem Idealize.ShloMosaic.ValueIdx Idealize.ShloMosaic.StableHlo
open Cert.KernelIdeal Cert.KernelIdeal.Gen
open Cert.DenseLayer Cert.BiasLayer Cert.TwoLayerGcn

variable (m : (ℓ : Loc nD τ sig) → Buf (Elt Ideal) ℓ) (ρ : Dev nD → PrngReg)

/-! ## The arguments as launched -/

abbrev xArg (c : Dev nD) : Mat 10000 512 := m ((c : Thread nD τ).loc main_arg0)
abbrev adjArg (c : Dev nD) : Mat 10000 10000 := m ((c : Thread nD τ).loc main_arg1)
abbrev w1Arg (c : Dev nD) : Mat 512 128 := m ((c : Thread nD τ).loc main_arg2)
abbrev b1Arg (c : Dev nD) : Row 128 := m ((c : Thread nD τ).loc main_arg3)
abbrev w2Arg (c : Dev nD) : Mat 128 512 := m ((c : Thread nD τ).loc main_arg4)
abbrev b2Arg (c : Dev nD) : Row 512 := m ((c : Thread nD τ).loc main_arg5)

/-- The hidden layer of the arguments. -/
abbrev hiddenArg (c : Dev nD) : Mat 10000 128 := hidden (adjArg m c) (xArg m c) (w1Arg m c) (b1Arg m c)

/-- The first host product sums the features' second axis against the weights' first. -/
theorem plainX1 : PlainDot dot_S10000x512_S512x128_S10000x128_1_0_0_1_n_n :=
  plainDot_of_axes _ rfl rfl rfl rfl rfl rfl

/-- The second host product likewise. -/
theorem plainX2 : PlainDot dot_S10000x128_S128x512_S10000x512_1_0_0_1_n_n :=
  plainDot_of_axes _ rfl rfl rfl rfl rfl rfl

/-! ## Region 0's entry: after the first host stretch -/

/-- No operation of the first stretch writes the adjacency matrix. -/
theorem entry0_adj (c : Dev nD) : Region0.adjAt (V1 m ρ) c = adjArg m c := by
  show StableHlo.after hostOps0 (W0 m ρ c) (Proc.devRef .tc main_arg1) = _
  after_results <;> rfl

/-- Region 0's right operand is the product `x · W1`. -/
theorem entry0_rhs (c : Dev nD) : Region0.rhsAt (V1 m ρ) c = prod (xArg m c) (w1Arg m c) := by
  show StableHlo.after hostOps0 (W0 m ρ c) (Proc.devRef .tc main_v1) = _
  after_results
  exact host_prod (φ₁ := .f32) (φ₂ := .f32) plainX1 none (xArg m c) (w1Arg m c)

/-- Region 0's bias block is `b1` as a `[1, 128]` block, whose row is `b1`. -/
theorem entry0_bias (c : Dev nD) : rowOf (Region0.biasAt (V1 m ρ) c) = b1Arg m c := by
  have e : Region0.biasAt (V1 m ρ) c = shapeCast S1x128 (b1Arg m c) shapeCasts_S128_S1x128 := by
    show StableHlo.after hostOps0 (W0 m ρ c) (Proc.devRef .tc main_v2) = _
    after_results
    rfl
  rw [e]
  exact rowOf_shapeCast _ _

/-- So region 0 leaves the hidden layer of the arguments. -/
theorem region0_array (c : Dev nD) : Region0.arrayOf (V1 m ρ) c = hiddenArg m c := by
  unfold Region0.arrayOf
  rw [entry0_adj, entry0_rhs, entry0_bias]
  rfl

/-! ## Region 0's exit -/

/-- The hidden layer sits in region 0's output array. -/
theorem exit0_hidden (c : Dev nD) : W2 m ρ c (Proc.devRef .tc main_v3) = hiddenArg m c :=
  (W2_arr m ρ c 3).trans ((Region0.final (V1 m ρ) c).trans (region0_array m ρ c))

/-- The adjacency matrix, an input window's array, is as the region found it. -/
theorem exit0_adj (c : Dev nD) : W2 m ρ c (Proc.devRef .tc main_arg1) = adjArg m c :=
  (W2_arr m ρ c 0).trans (((dat0 (V1 m ρ) c).arrAt_in 0 rfl _).trans ((A_eq0 (V1 m ρ) c 0).trans (entry0_adj m ρ c)))

/-- The second weights, no window's array, are as launched. -/
theorem exit0_w2 (c : Dev nD) : W2 m ρ c (Proc.devRef .tc main_arg4) = w2Arg m c :=
  (W2_of_ne m ρ c main_arg4 (by decide)).trans (by
    show StableHlo.after hostOps0 (W0 m ρ c) (Proc.devRef .tc main_arg4) = _
    after_results <;> rfl)

/-- The second bias likewise. -/
theorem exit0_b2 (c : Dev nD) : W2 m ρ c (Proc.devRef .tc main_arg5) = b2Arg m c :=
  (W2_of_ne m ρ c main_arg5 (by decide)).trans (by
    show StableHlo.after hostOps0 (W0 m ρ c) (Proc.devRef .tc main_arg5) = _
    after_results <;> rfl)

/-! ## Region 1's entry: after the second host stretch -/

theorem entry1_adj (c : Dev nD) : Region1.adjAt (V3 m ρ) c = adjArg m c := by
  show StableHlo.after hostOps1 (W2 m ρ c) (Proc.devRef .tc main_arg1) = _
  after_results
  exact exit0_adj m ρ c

/-- Region 1's right operand is the product `hidden · W2`. -/
theorem entry1_rhs (c : Dev nD) : Region1.rhsAt (V3 m ρ) c = prod (hiddenArg m c) (w2Arg m c) := by
  show StableHlo.after hostOps1 (W2 m ρ c) (Proc.devRef .tc main_v5) = _
  after_results
  rw [exit0_hidden, exit0_w2]
  exact host_prod (φ₁ := .f32) (φ₂ := .f32) plainX2 none (hiddenArg m c) (w2Arg m c)

/-- Region 1's bias block is `b2` as a `[1, 512]` block, whose row is `b2`. -/
theorem entry1_bias (c : Dev nD) : rowOf (Region1.biasAt (V3 m ρ) c) = b2Arg m c := by
  have e : Region1.biasAt (V3 m ρ) c = shapeCast S1x512 (b2Arg m c) shapeCasts_S512_S1x512 := by
    show StableHlo.after hostOps1 (W2 m ρ c) (Proc.devRef .tc main_v6) = _
    after_results
    rw [exit0_b2]
    rfl
  rw [e]
  exact rowOf_shapeCast _ _

/-! ## The result -/

/-- At the last boundary the result array holds the output layer of the arguments. -/
theorem result_eq (c : Dev nD) : W4 m ρ c (Proc.devRef .tc main_v7)
    = output (adjArg m c) (xArg m c) (w1Arg m c) (b1Arg m c) (w2Arg m c) (b2Arg m c) := by
  refine (W4_arr m ρ c 3).trans ((Region1.final (V3 m ρ) c).trans ?_)
  unfold Region1.arrayOf output
  rw [entry1_adj, entry1_rhs, entry1_bias]

/-- The idealized kernel's run: it terminates without a fault with the result array at `output` of the arguments and
    the arguments as launched. -/
theorem run : θ_run defs (onTc (τ := τ) (main (F := Ideal))) ⟨m, fun _ => 0, ρ⟩ (fun r => ∀ c : Dev nD,
      r.2.mem ((c.tc : Thread nD τ).loc main_v7)
        = output (adjArg m c) (xArg m c) (w1Arg m c) (b1Arg m c) (w2Arg m c) (b2Arg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩)
    (Cert.KernelIdeal.Named.run_named (F := Ideal) m ρ)

end Cert.KernelIdeal.Chain

end
-- ==== Proof.RefValue.lean ====
/-
  The idealized reference's result as one function of its six arguments.

  The reference is a host program: `adj · (x · W1)` plus the bias `b1` laid over the rows, the maximum against zero,
  then `adj · (hidden · W2)` plus `b2` laid over the rows. Its run ends with the result array at that composed term of
  the arguments as launched; the term is `output`, the two layers as plain functions.
-/
import proofs.«152123_j17721035063382_1_alg».proof.Proof.Gen.ReferenceIdeal.Run
import proofs.«152123_j17721035063382_1_alg».proof.Proof.LibTwoLayerGcn
import proofs.«152123_j17721035063382_1_alg».proof.Proof.LibPlainDot

noncomputable section

namespace Cert.ReferenceIdeal.RefValue

open Idealize.ShloMosaic Idealize.ShloMosaic.TcCoe Idealize.SL.Sem Idealize.ShloMosaic.ValueIdx
open Cert.ReferenceIdeal Cert.ReferenceIdeal.Gen
open Cert.DenseLayer Cert.BiasLayer Cert.TwoLayerGcn

/-- Each of the reference's four products sums the left operand's second axis against the right operand's first. -/
theorem plainR1 : PlainDot dot_S10000x512_S512x128_S10000x128_1_0_0_1_n_n :=
  plainDot_of_axes _ rfl rfl rfl rfl rfl rfl
theorem plainR2 : PlainDot dot_S10000x10000_S10000x128_S10000x128_1_0_0_1_n_n :=
  plainDot_of_axes _ rfl rfl rfl rfl rfl rfl
theorem plainR3 : PlainDot dot_S10000x128_S128x512_S10000x512_1_0_0_1_n_n :=
  plainDot_of_axes _ rfl rfl rfl rfl rfl rfl
theorem plainR4 : PlainDot dot_S10000x10000_S10000x512_S10000x512_1_0_0_1_n_n :=
  plainDot_of_axes _ rfl rfl rfl rfl rfl rfl

/-- The reference's result term is the output layer of its arguments. -/
theorem result_eq (x : FVec Ideal S10000x512 .f32) (adj : FVec Ideal S10000x10000 .f32) (W1 : FVec Ideal S512x128 .f32)
    (b1 : FVec Ideal S128 .f32) (W2 : FVec Ideal S128x512 .f32) (b2 : FVec Ideal S512 .f32) :
    addf (Host.dotGeneral dot_S10000x10000_S10000x512_S10000x512_1_0_0_1_n_n none adj
        (Host.dotGeneral dot_S10000x128_S128x512_S10000x512_1_0_0_1_n_n none
          (maximumf (addf (Host.dotGeneral dot_S10000x10000_S10000x128_S10000x128_1_0_0_1_n_n none adj
              (Host.dotGeneral dot_S10000x512_S512x128_S10000x128_1_0_0_1_n_n none x W1))
              (broadcastInDim S10000x128 ![0, 1] bcast_S1x128_S10000x128_0_1 (broadcastInDim S1x128 ![1] bcast_S128_S1x128_1 b1)))
            (broadcastInDim S10000x128 ![] bcast_S_S10000x128 (constant (F := Ideal) S_ .f32 0x00000000#32))) W2))
      (broadcastInDim S10000x512 ![0, 1] bcast_S1x512_S10000x512_0_1 (broadcastInDim S1x512 ![1] bcast_S512_S1x512_1 b2))
      = output adj x W1 b1 W2 b2 :=
  host_two_layers plainR1 plainR2 plainR3 plainR4 none none none none x adj W1 b1 W2 b2
    bcast_S128_S1x128_1 bcast_S1x128_S10000x128_0_1 bcast_S_S10000x128 bcast_S512_S1x512_1 bcast_S1x512_S10000x512_0_1

end Cert.ReferenceIdeal.RefValue

end
-- ==== Proof.lean ====
/-
  A two-layer graph convolution, blocked by rows of the adjacency matrix, against its plain definition.

  With `adj` of `[10000, 10000]`, features `x` of `[10000, 512]`, weights `W1` `[512, 128]`, `W2` `[128, 512]` and biases
  `b1`, `b2`, both programs compute `adj · (max (adj · (x · W1) + b1) 0 · W2) + b2` with the products grouped this way. The
  kernel takes the two small products on the host and each product with the adjacency matrix in a kernel region that
  walks the matrix in 50 blocks of 200 rows; the reference takes all four products whole. On the extended reals a
  change of float format is the identity, a row of a product depends on the left matrix only through that row, and
  the 50 row blocks tile the result: so both result arrays hold the same function of the arguments, index by index,
  for all inputs (no finiteness is used).

  The three frames are the programs' runs; the idealization rewrote nothing, so its statement is `True`.
-/
import proofs.«152123_j17721035063382_1_alg».proof.Defs
import proofs.«152123_j17721035063382_1_alg».proof.Proof.Gen.Kernel
import proofs.«152123_j17721035063382_1_alg».proof.Proof.Gen.Kernel.Skeleton
import proofs.«152123_j17721035063382_1_alg».proof.Proof.Gen.Kernel.Launch
import proofs.«152123_j17721035063382_1_alg».proof.Proof.Gen.Kernel.Points
import proofs.«152123_j17721035063382_1_alg».proof.Proof.Gen.Kernel.Frame
import proofs.«152123_j17721035063382_1_alg».proof.Proof.Gen.KernelIdeal
import proofs.«152123_j17721035063382_1_alg».proof.Proof.Gen.KernelIdeal.Skeleton
import proofs.«152123_j17721035063382_1_alg».proof.Proof.Gen.KernelIdeal.Launch
import proofs.«152123_j17721035063382_1_alg».proof.Proof.Gen.KernelIdeal.Points
import proofs.«152123_j17721035063382_1_alg».proof.Proof.Gen.KernelIdeal.Frame
import proofs.«152123_j17721035063382_1_alg».proof.Proof.Gen.ReferenceIdeal
import proofs.«152123_j17721035063382_1_alg».proof.Proof.Gen.ReferenceIdeal.Run
import proofs.«152123_j17721035063382_1_alg».proof.Proof.Gen.Pre_finite_inputs
import proofs.«152123_j17721035063382_1_alg».proof.Proof.KernelChain
import proofs.«152123_j17721035063382_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The idealized reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the result array at the output layer of the arguments: the kernel's by its two
    regions' blocks, the reference's by its host operations, of arguments that agree. -/
theorem algebraic : Cert.algebraic_KernelIdeal_ReferenceIdeal := by
  intro m ρ m' ρ' _ hagree
  refine ⟨_, Cert.KernelIdeal.Chain.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact Cert.ReferenceIdeal.RefValue.result_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
